-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x10000 .f32) (main_arg1 : FVec F S10000x128 .f32) (main_arg2 : FVec F S128x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x128 : Shape := ⟨2, ![128, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 4
  | .vmem => 6
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩
abbrev S10000 : Shape := ⟨1, ![10000]⟩
abbrev S10000x1 : Shape := ⟨2, ![10000, 1]⟩

abbrev nBuf : Space → Nat
  | .hbm => 51
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .hbm, ⟨4, _⟩ => ⟨S128x128, .f32⟩
  | .hbm, ⟨5, _⟩ => ⟨S10000x128, .f32⟩
  | .hbm, ⟨6, _⟩ => ⟨S_, .f32⟩
  | .hbm, ⟨7, _⟩ => ⟨S10000, .f32⟩
  | .hbm, ⟨8, _⟩ => ⟨S10000x1, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S_, .i32⟩
  | .hbm, ⟨13, _⟩ => ⟨S_, .f32⟩
  | .hbm, ⟨14, _⟩ => ⟨S10000, .f32⟩
  | .hbm, ⟨15, _⟩ => ⟨S10000x1, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000x1, .f32⟩
  | .hbm, ⟨28, _⟩ => ⟨S10000x1, .f32⟩
  | .hbm, ⟨29, _⟩ => ⟨S10000x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S10000x1, .f32⟩
  | .hbm, ⟨35, _⟩ => ⟨S10000x1, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S10000x128, .f32⟩
  | .hbm, ⟨43, _⟩ => ⟨S10000x128, .f32⟩
  | .hbm, ⟨44, _⟩ => ⟨S_, .f32⟩
  | .hbm, ⟨45, _⟩ => ⟨S10000x128, .f32⟩
  | .hbm, ⟨46, _⟩ => ⟨S10000x128, .i1⟩
  | .hbm, ⟨47, _⟩ => ⟨S_, .f32⟩
  | .hbm, ⟨48, _⟩ => ⟨S10000x128, .f32⟩
  | .hbm, ⟨49, _⟩ => ⟨S10000x128, .f32⟩
  | .hbm, ⟨50, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩

abbrev nD : Nat := 1
abbrev τ : Topo := Topo.v7x

variable {F : FTy → Type} [FloatOps F]

class Facts₀ : Prop where
  transposes_S128x128_S128x128_1_0 : S128x128.Transposes [1, 0] S128x128
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.Spec.lean ====
/-
  One entry of `(A · X) · Wᵀ`, as a double sum.

  For an array `a` of `n` rows and 10000 columns, `x` of shape 10000 × 128 and `w` of shape 128 × 128, entry
  `(r, j)` of `(a · x) · wᵀ` is `Σₖ (Σₗ a[r, l] · x[l, k]) · w[j, k]`. The number of rows is left free: the
  kernel forms the product on blocks of 400 rows of `A`, the reference on all 10000, and row `p` of block `t` is
  row `400 t + p` of the whole array, so the two entries are one sum (`entry_block`). When every input entry is a
  real number so is every entry of the product (`entry_real`): a finite sum of products of reals.
-/
import proofs.«132448_g49108656063244_cont_8to1_c_419_2_alg».proof.Proof.LibCoe
import Idealize.ShloMosaic.Lib.ValueIdx

noncomputable section

namespace Cert.Spec

open Idealize.ShloMosaic Idealize.ShloMosaic.ValueIdx Finset BigOperators

/-- Entry `(r, j)` of `(a · x) · wᵀ`. -/
def entry {n : ℕ} (a : (⟨2, ![n, 10000]⟩ : Shape).Idx → EReal) (x : (⟨2, ![10000, 128]⟩ : Shape).Idx → EReal)
    (w : (⟨2, ![128, 128]⟩ : Shape).Idx → EReal) (r : Fin n) (j : Fin 128) : EReal :=
  ∑ k : Fin 128, (∑ l : Fin 10000, a (ix2 r l) * x (ix2 l k)) * w (ix2 j k)

/-- Rows of a block are rows of the array: if row `p` of `b` is row `r` of `a`, their entries of the product agree. -/
theorem entry_block {n n' : ℕ} (b : (⟨2, ![n, 10000]⟩ : Shape).Idx → EReal) (a : (⟨2, ![n', 10000]⟩ : Shape).Idx → EReal)
    (x : (⟨2, ![10000, 128]⟩ : Shape).Idx → EReal) (w : (⟨2, ![128, 128]⟩ : Shape).Idx → EReal) (p : Fin n) (r : Fin n')
    (h : ∀ l : Fin 10000, b (ix2 p l) = a (ix2 r l)) (j : Fin 128) : entry b x w p j = entry a x w r j := by
  unfold entry
  simp only [h]

/-- On real inputs every entry of the product is a real. -/
theorem entry_real {n : ℕ} (a' : (⟨2, ![n, 10000]⟩ : Shape).Idx → ℝ) (x' : (⟨2, ![10000, 128]⟩ : Shape).Idx → ℝ)
    (w' : (⟨2, ![128, 128]⟩ : Shape).Idx → ℝ) (r : Fin n) (j : Fin 128) :
    entry (fun i => ((a' i : ℝ) : EReal)) (fun i => ((x' i : ℝ) : EReal)) (fun i => ((w' i : ℝ) : EReal)) r j
      = ((∑ k : Fin 128, (∑ l : Fin 10000, a' (ix2 r l) * x' (ix2 l k)) * w' (ix2 j k) : ℝ) : EReal) := by
  unfold entry
  simp only [Cert.LibCoe.mul_coe, Cert.LibCoe.sum_coe]

end Cert.Spec

end
-- ==== Proof.KerContr.lean ====
/-
  The kernel's two matrix products, read at an entry.

  The body first multiplies its 400 × 10000 block of `A` by the whole of `X` (contracting the block's columns
  with `X`'s rows), then multiplies the 400 × 128 result by `W` contracting the second axis of BOTH (so the
  second factor enters transposed). Each is a product into a zero accumulator, hence, on the extended reals, the
  plain sum over the one contracted coordinate of the operands' products. Together: entry `(p, j)` of the block's
  result is `Σₖ (Σₗ a[p, l] · x[l, k]) · w[j, k]`, the double sum `Spec.entry`.
  Per product: where each operand's index sits for a given result index and contraction index (one statement
  per operand axis), then the sum re-indexed by the contracted coordinate.
-/
import proofs.«132448_g49108656063244_cont_8to1_c_419_2_alg».proof.Proof.Gen.KernelIdeal
import proofs.«132448_g49108656063244_cont_8to1_c_419_2_alg».proof.Proof.Spec
import Idealize.ShloMosaic.PureOps.Ideal.Laws
import Idealize.ShloMosaic.Lib.ValueIdx

noncomputable section

namespace Cert.KernelIdeal.Contr

open Idealize.ShloMosaic Idealize.ShloMosaic.ValueIdx Cert.KernelIdeal Cert.KernelIdeal.Gen Finset BigOperators

/-! ### The block of `A` times `X` -/

theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- Where the first product reads its left operand: row of the result, contracted coordinate. -/
abbrev lidxA (i : S400x128.Idx) (k : Fin 10000) : S400x10000.Idx := fun a => match a with
  | ⟨0, _⟩ => ⟨(i 0).val, (i 0).isLt⟩
  | ⟨1, _⟩ => ⟨k.val, k.isLt⟩
/-- Where it reads its right operand: contracted coordinate, column of the result. -/
abbrev ridxA (i : S400x128.Idx) (k : Fin 10000) : S10000x128.Idx := fun a => match a with
  | ⟨0, _⟩ => ⟨k.val, k.isLt⟩
  | ⟨1, _⟩ => ⟨(i 1).val, (i 1).isLt⟩

/-- The first product at an index: the sum over the 10000 contracted coordinates. -/
theorem mmA_apply (l : FVec Ideal S400x10000 .f32) (r : FVec Ideal S10000x128 .f32) (i : S400x128.Idx) :
    matmul dot_S400x10000_S10000x128_S400x128_1_0_0_1_n_n none l r (constant S400x128 .f32 0x00000000#32) i
      = ∑ k : Fin 10000, l (lidxA i k) * r (ridxA i k) := by
  simp only [matmul]
  rw [Ideal.matmul_constant_zero_apply,
    ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx i
      ((contrEquiv1 dot_S400x10000_S10000x128_S400x128_1_0_0_1_n_n 10000 rfl rfl).symm k) = lidxA i k :=
    funext fun a => Fin.ext (by
      match a with
      | ⟨0, _⟩ => exact lhsA_0 _ _
      | ⟨1, _⟩ => exact (lhsA_1 _ _).trans hk)
  have er : dot_S400x10000_S10000x128_S400x128_1_0_0_1_n_n.rhsIdx i
      ((contrEquiv1 dot_S400x10000_S10000x128_S400x128_1_0_0_1_n_n 10000 rfl rfl).symm k) = ridxA i k :=
    funext fun a => Fin.ext (by
      match a with
      | ⟨0, _⟩ => exact (rhsA_0 _ _).trans hk
      | ⟨1, _⟩ => exact rhsA_1 _ _)
  rw [el, er]

theorem lidxA_ix2 (p : Fin 400) (q : Fin 128) (k : Fin 10000) : lidxA (ix2 p q) k = ix2 p k :=
  funext fun a => match a with | ⟨0, _⟩ => rfl | ⟨1, _⟩ => rfl
theorem ridxA_ix2 (p : Fin 400) (q : Fin 128) (k : Fin 10000) : ridxA (ix2 p q) k = ix2 k q :=
  funext fun a => match a with | ⟨0, _⟩ => rfl | ⟨1, _⟩ => rfl

/-- The first product at `(p, q)`: `Σₗ a[p, l] · x[l, q]`. -/
theorem mmA_ix2 (l : FVec Ideal S400x10000 .f32) (r : FVec Ideal S10000x128 .f32) (p : Fin 400) (q : Fin 128) :
    matmul dot_S400x10000_S10000x128_S400x128_1_0_0_1_n_n none l r (constant S400x128 .f32 0x00000000#32) (ix2 p q)
      = ∑ k : Fin 10000, l (ix2 p k) * r (ix2 k q) := by
  rw [mmA_apply]
  exact Finset.sum_congr rfl fun k _ => by rw [lidxA_ix2, ridxA_ix2]

/-! ### That result times `W`, both second axes contracted -/

theorem lhsB_0 (i : S400x128.Idx) (q : dot_S400x128_S128x128_S400x128_1_1_0_0_n_n.contr.Idx) :
    (dot_S400x128_S128x128_S400x128_1_1_0_0_n_n.lhsIdx i q 0).val = (i 0).val := by
  unfold DotDims.lhsIdx
  rw [dif_neg (show ¬(0 : Fin S400x128.rank) ∈ dot_S400x128_S128x128_S400x128_1_1_0_0_n_n.lhsBatch by decide),
    dif_pos (show (0 : Fin S400x128.rank) ∈ dot_S400x128_S128x128_S400x128_1_1_0_0_n_n.lhsNonContracting by decide)]
  rfl
theorem lhsB_1 (i : S400x128.Idx) (q : dot_S400x128_S128x128_S400x128_1_1_0_0_n_n.contr.Idx) :
    (dot_S400x128_S128x128_S400x128_1_1_0_0_n_n.lhsIdx i q 1).val = (q ⟨0, by decide⟩).val :=
  dot_S400x128_S128x128_S400x128_1_1_0_0_n_n.lhsIdx_val_of_single rfl i q
theorem rhsB_0 (i : S400x128.Idx) (q : dot_S400x128_S128x128_S400x128_1_1_0_0_n_n.contr.Idx) :
    (dot_S400x128_S128x128_S400x128_1_1_0_0_n_n.rhsIdx i q 0).val = (i 1).val := by
  unfold DotDims.rhsIdx
  rw [dif_neg (show ¬(0 : Fin S128x128.rank) ∈ dot_S400x128_S128x128_S400x128_1_1_0_0_n_n.rhsBatch by decide),
    dif_pos (show (0 : Fin S128x128.rank) ∈ dot_S400x128_S128x128_S400x128_1_1_0_0_n_n.rhsNonContracting by decide)]
  rfl
theorem rhsB_1 (i : S400x128.Idx) (q : dot_S400x128_S128x128_S400x128_1_1_0_0_n_n.contr.Idx) :
    (dot_S400x128_S128x128_S400x128_1_1_0_0_n_n.rhsIdx i q 1).val = (q ⟨0, by decide⟩).val :=
  dot_S400x128_S128x128_S400x128_1_1_0_0_n_n.rhsIdx_val_of_single rfl i q

/-- Where the second product reads its left operand: row of the result, contracted coordinate. -/
abbrev lidxB (i : S400x128.Idx) (k : Fin 128) : S400x128.Idx := fun a => match a with
  | ⟨0, _⟩ => ⟨(i 0).val, (i 0).isLt⟩
  | ⟨1, _⟩ => ⟨k.val, k.isLt⟩
/-- Where it reads its right operand: COLUMN of the result first, contracted coordinate second (the transposed factor). -/
abbrev ridxB (i : S400x128.Idx) (k : Fin 128) : S128x128.Idx := fun a => match a with
  | ⟨0, _⟩ => ⟨(i 1).val, (i 1).isLt⟩
  | ⟨1, _⟩ => ⟨k.val, k.isLt⟩

/-- The second product at an index: the sum over the 128 contracted coordinates. -/
theorem mmB_apply (l : FVec Ideal S400x128 .f32) (r : FVec Ideal S128x128 .f32) (i : S400x128.Idx) :
    matmul dot_S400x128_S128x128_S400x128_1_1_0_0_n_n none l r (constant S400x128 .f32 0x00000000#32) i
      = ∑ k : Fin 128, l (lidxB i k) * r (ridxB i k) := by
  simp only [matmul]
  rw [Ideal.matmul_constant_zero_apply,
    ← Equiv.sum_comp (contrEquiv1 dot_S400x128_S128x128_S400x128_1_1_0_0_n_n 128 rfl rfl).symm]
  refine Finset.sum_congr rfl fun k _ => ?_
  have hk := contrEquiv1_symm_val dot_S400x128_S128x128_S400x128_1_1_0_0_n_n 128 rfl rfl k
  have el : dot_S400x128_S128x128_S400x128_1_1_0_0_n_n.lhsIdx i
      ((contrEquiv1 dot_S400x128_S128x128_S400x128_1_1_0_0_n_n 128 rfl rfl).symm k) = lidxB i k :=
    funext fun a => Fin.ext (by
      match a with
      | ⟨0, _⟩ => exact lhsB_0 _ _
      | ⟨1, _⟩ => exact (lhsB_1 _ _).trans hk)
  have er : dot_S400x128_S128x128_S400x128_1_1_0_0_n_n.rhsIdx i
      ((contrEquiv1 dot_S400x128_S128x128_S400x128_1_1_0_0_n_n 128 rfl rfl).symm k) = ridxB i k :=
    funext fun a => Fin.ext (by
      match a with
      | ⟨0, _⟩ => exact rhsB_0 _ _
      | ⟨1, _⟩ => exact (rhsB_1 _ _).trans hk)
  rw [el, er]

theorem lidxB_ix2 (p : Fin 400) (q : Fin 128) (k : Fin 128) : lidxB (ix2 p q) k = ix2 p k :=
  funext fun a => match a with | ⟨0, _⟩ => rfl | ⟨1, _⟩ => rfl
theorem ridxB_ix2 (p : Fin 400) (q : Fin 128) (k : Fin 128) : ridxB (ix2 p q) k = ix2 q k :=
  funext fun a => match a with | ⟨0, _⟩ => rfl | ⟨1, _⟩ => rfl

/-- The second product at `(p, q)`: `Σₖ l[p, k] · w[q, k]`. -/
theorem mmB_ix2 (l : FVec Ideal S400x128 .f32) (r : FVec Ideal S128x128 .f32) (p : Fin 400) (q : Fin 128) :
    matmul dot_S400x128_S128x128_S400x128_1_1_0_0_n_n none l r (constant S400x128 .f32 0x00000000#32) (ix2 p q)
      = ∑ k : Fin 128, l (ix2 p k) * r (ix2 q k) := by
  rw [mmB_apply]
  exact Finset.sum_congr rfl fun k _ => by rw [lidxB_ix2, ridxB_ix2]

/-! ### Both -/

/-- The body's two products, composed. -/
def prod (x0 : FVec Ideal S400x10000 .f32) (x1 : FVec Ideal S10000x128 .f32) (x2 : FVec Ideal S128x128 .f32) :
    FVec Ideal S400x128 .f32 :=
  matmul dot_S400x128_S128x128_S400x128_1_1_0_0_n_n none
    (matmul dot_S400x10000_S10000x128_S400x128_1_0_0_1_n_n none x0 x1 (constant S400x128 .f32 0x00000000#32))
    x2 (constant S400x128 .f32 0x00000000#32)

/-- Entry `(p, j)` of the block's result is the double sum. -/
theorem prod_apply (x0 : FVec Ideal S400x10000 .f32) (x1 : FVec Ideal S10000x128 .f32) (x2 : FVec Ideal S128x128 .f32)
    (p : Fin 400) (j : Fin 128) : prod x0 x1 x2 (ix2 p j) = Cert.Spec.entry x0 x1 x2 p j := by
  unfold prod Cert.Spec.entry
  rw [mmB_ix2]
  exact Finset.sum_congr rfl fun k _ => by rw [mmA_ix2]

end Cert.KernelIdeal.Contr

end
-- ==== Proof.RowLaw.lean ====
/-
  One row: the kernel's normalisation and the reference's are the same function of a real row.

  Both programs finish with a function of ONE row `ρ` of 128 numbers (a row of `(A · X) · Wᵀ`).
  The kernel:     `μ = (Σ ρ) / 128`,  `d = ρ − μ`,  `σ² = (Σ d²) / 128`,  `y = d · (σ² + ε)^(−1/2)`;
  the reference:  `μ = (0 + Σ ρ) / 128`,  `d = ρ − μ`,  `σ² = (0 + Σ d²) / (128 − 0)` kept because `128 − 0 > 0`,
                  `y = d / √(σ² + ε)`;
  both then return `y` where `y ≥ 0` and `0.01 · y` elsewhere, with the same three constants.
  On the extended reals `0 + s = s` and `c − 0 = c` always, so the two means and the two variances agree on
  every row. The last step is where finiteness is used: for a REAL row the variance is a real `s ≥ 0`, so
  `s + ε` is a positive real, its square root a positive real `t`, and `d / t = d · t⁻¹` is ordinary
  arithmetic; at an infinite entry the two sides could differ (`∞ · 0` against `∞ / ∞`), so the law is stated
  for real rows only.
-/
import proofs.«132448_g49108656063244_cont_8to1_c_419_2_alg».proof.Proof.LibCoe
import Idealize.ShloMosaic.PureOps.Ideal
import Idealize.ShloMosaic.PureOps.Ideal.Laws
import Idealize.ShloMosaic.Lib.ValueIdx

noncomputable section

namespace Cert.Row

open Idealize.ShloMosaic Finset BigOperators

/-! ### The constants -/

/-- `128.0` -/
def c128 : EReal := Ideal.ofBits .f32 0x43000000#32
/-- the single-precision number nearest `10⁻⁵` -/
def eps : EReal := Ideal.ofBits .f32 0x3727C5AC#32
/-- the single-precision number nearest `0.01` -/
def slope : EReal := Ideal.ofBits .f32 0x3C23D70A#32
/-- `+0.0` -/
def z : EReal := Ideal.ofBits .f32 0x00000000#32
/-- the quiet not-a-number pattern the reference fills with where its count is not positive -/
def fill : EReal := Ideal.ofBits .f32 0x7FC00000#32

theorem z_eq : z = 0 := Ideal.ofBits_zero_f32

theorem z_coe : z = ((0 : ℝ) : EReal) := Cert.LibCoe.ofBits_zero

/-- The pattern of `128.0` (exponent field 134, fraction 0) denotes the real `128 = 2⁷`. -/
theorem c128_eq : c128 = ((128 : ℝ) : EReal) := by
  unfold c128
  simp [Ideal.ofBits, Ideal.ieee, -EReal.coe_mul]; norm_num

theorem eps_eq : eps = ((Cert.LibCoe.epsR : ℝ) : EReal) := Cert.LibCoe.ofBits_eps

/-! ### The kernel's row function -/

def kmean (ρ : Fin 128 → EReal) : EReal := Ideal.div (∑ j, ρ j) c128
def kdev (ρ : Fin 128 → EReal) (j : Fin 128) : EReal := ρ j - kmean ρ
def kvar (ρ : Fin 128 → EReal) : EReal := Ideal.div (∑ j, kdev ρ j * kdev ρ j) c128
def knorm (ρ : Fin 128 → EReal) (q : Fin 128) : EReal := kdev ρ q * Ideal.rsqrt (kvar ρ + eps)
def krow (ρ : Fin 128 → EReal) (q : Fin 128) : EReal :=
  Scalar.select (Ideal.cmp .oge (knorm ρ q) z) (knorm ρ q) (slope * knorm ρ q)

/-! ### The reference's row function -/

def rmean (ρ : Fin 128 → EReal) : EReal := Ideal.div (z + ∑ j, ρ j) c128
def rdev (ρ : Fin 128 → EReal) (j : Fin 128) : EReal := ρ j - rmean ρ
/-- the count the variance divides by: `128` less the integer `0` read as a float -/
def rcnt : EReal := c128 - ((((0#32 : BitVec 32).toInt : ℤ) : ℝ) : EReal)
def rvar (ρ : Fin 128 → EReal) : EReal :=
  Scalar.select (Ideal.cmp .ogt rcnt z) (Ideal.div (z + ∑ j, rdev ρ j * rdev ρ j) rcnt) fill
def rnorm (ρ : Fin 128 → EReal) (q : Fin 128) : EReal := Ideal.div (rdev ρ q) (Ideal.sqrt (rvar ρ + eps))
def rrow (ρ : Fin 128 → EReal) (q : Fin 128) : EReal :=
  Scalar.select (Ideal.cmp .oge (rnorm ρ q) z) (rnorm ρ q) (slope * rnorm ρ q)

/-! ### Mean and variance agree on every row -/

theorem rmean_eq (ρ : Fin 128 → EReal) : rmean ρ = kmean ρ := by
  unfold rmean kmean; rw [z_eq, zero_add]

theorem rdev_eq (ρ : Fin 128 → EReal) (j : Fin 128) : rdev ρ j = kdev ρ j := by
  unfold rdev kdev; rw [rmean_eq]

/-- `128 − 0 = 128`. -/
theorem rcnt_eq : rcnt = c128 := by
  unfold rcnt
  rw [show (0#32 : BitVec 32).toInt = 0 from rfl, Int.cast_zero, EReal.coe_zero, sub_zero]

/-- `128 > 0`: the reference keeps its quotient, never the fill. -/
theorem cnt_pos : Ideal.cmp .ogt c128 z = 1#1 := by
  rw [c128_eq, z_coe]; exact Cert.LibCoe.cmp_ogt_coe_zero_of_pos (by norm_num)

theorem rvar_eq (ρ : Fin 128 → EReal) : rvar ρ = kvar ρ := by
  unfold rvar kvar
  rw [rcnt_eq, cnt_pos, ValueIdx.select_one, z_eq, zero_add]
  simp only [rdev_eq]

/-! ### On a real row the two normalisations agree -/

/-- For a row of real numbers, `d / √(σ² + ε) = d · (σ² + ε)^(−1/2)`: everything in sight is a real, and
    `σ² + ε ≥ ε > 0`. -/
theorem rnorm_eq_knorm (ρ' : Fin 128 → ℝ) (q : Fin 128) :
    rnorm (fun j => ((ρ' j : ℝ) : EReal)) q = knorm (fun j => ((ρ' j : ℝ) : EReal)) q := by
  have hm : kmean (fun j => ((ρ' j : ℝ) : EReal)) = (((∑ j, ρ' j) / 128 : ℝ) : EReal) := by
    unfold kmean
    rw [Cert.LibCoe.sum_coe, c128_eq, Cert.LibCoe.div_coe_coe _ (by norm_num)]
  have hd : ∀ j, kdev (fun j => ((ρ' j : ℝ) : EReal)) j = ((ρ' j - (∑ j, ρ' j) / 128 : ℝ) : EReal) := fun j => by
    unfold kdev
    rw [hm]
    exact Cert.LibCoe.sub_coe _ _
  have hv : kvar (fun j => ((ρ' j : ℝ) : EReal))
      = (((∑ j, (ρ' j - (∑ j, ρ' j) / 128) * (ρ' j - (∑ j, ρ' j) / 128)) / 128 : ℝ) : EReal) := by
    unfold kvar
    simp only [hd, Cert.LibCoe.mul_coe]
    rw [Cert.LibCoe.sum_coe, c128_eq, Cert.LibCoe.div_coe_coe _ (by norm_num)]
  have hs : 0 ≤ (∑ j, (ρ' j - (∑ j, ρ' j) / 128) * (ρ' j - (∑ j, ρ' j) / 128)) / 128 :=
    div_nonneg (Finset.sum_nonneg fun j _ => mul_self_nonneg _) (by norm_num)
  have hpos : 0 < (∑ j, (ρ' j - (∑ j, ρ' j) / 128) * (ρ' j - (∑ j, ρ' j) / 128)) / 128 + Cert.LibCoe.epsR :=
    add_pos_of_nonneg_of_pos hs Cert.LibCoe.epsR_pos
  unfold rnorm knorm
  rw [rvar_eq, rdev_eq, hv, hd, eps_eq, Cert.LibCoe.add_coe, Ideal.sqrt_coe, if_neg (not_lt.mpr hpos.le),
    Cert.LibCoe.div_coe_coe _ (Real.sqrt_ne_zero'.mpr hpos), Cert.LibCoe.rsqrt_coe_pos hpos, Cert.LibCoe.mul_coe,
    div_eq_mul_inv]

/-- The two row functions agree on a row of real numbers. -/
theorem rrow_eq_krow (ρ' : Fin 128 → ℝ) (q : Fin 128) :
    rrow (fun j => ((ρ' j : ℝ) : EReal)) q = krow (fun j => ((ρ' j : ℝ) : EReal)) q := by
  unfold rrow krow
  rw [rnorm_eq_knorm]

/-- The same for a row each of whose entries is known to be a real. -/
theorem rrow_eq_krow_of_real (ρ : Fin 128 → EReal) (h : ∀ j, ∃ r : ℝ, ρ j = (r : EReal)) (q : Fin 128) :
    rrow ρ q = krow ρ q := by
  choose ρ' hρ' using h
  obtain rfl : ρ = fun j => ((ρ' j : ℝ) : EReal) := funext hρ'
  exact rrow_eq_krow ρ' q

end Cert.Row

end
-- ==== Proof.LibCols.lean ====
/-
  Keepdims columns read at coordinates.

  A row reduction with the reduced axis kept (`[a, b] → [a] → [a, 1] → [a, b]`) passes through three layout
  operations: a rank-1 array recast as a one-column matrix, a one-column matrix repeated along its unit axis, and,
  on the host side, the same two steps written as `broadcast_in_dim`, plus a scalar spread over a whole array.
  Each lemma below reads one of them at an index given by its coordinates: the result at `(i, ·)` is the operand
  at `i` (or at `(i, 0)`), whatever the coordinate on the repeated axis.
-/
import Idealize.ShloMosaic.Lib.Pipeline.Value
import Idealize.ShloMosaic.Lib.ValueIdx

namespace Cert.LibCols

open Idealize.ShloMosaic Idealize.ShloMosaic.ValueIdx

variable {α : Type}

/-- An `[a]` array recast as the one-column matrix `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix `[a, 1]` repeated to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first step: an `[a]` array placed on axis 0 of `[a, 1]` reads, at `(i, u)`, the operand at `i`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's form of the second step: `[a, 1]` placed on axes `(0, 1)` of `[a, b]` reads, at `(p, c)`, the operand's row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A rank-0 array spread over any shape reads, everywhere, its one entry. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t (![] : Fin 0 → Fin t.rank) h x j = x ix0 :=
  broadcastInDim_apply _ h x j ix0 fun ax => ax.elim0

end Cert.LibCols
-- ==== Proof.KerPay.lean ====
/-
  The kernel body's stored value at an entry.

  After its two matrix products (`Contr.prod`) the body works row by row on the 400 × 128 result `v`:
  the row sums kept as a column and divided by 128 (the mean), the deviations `v − mean`, the row sums of their
  squares over 128 (the variance), the deviations times the reciprocal square root of variance plus ε, and last
  the choice between that value and 0.01 times it by its sign. Read at `(p, q)`, each stage depends on row `p`
  of `v` only, and the stages are, one for one, those of `Row.krow`: the stored value at `(p, q)` is
  `Row.krow` of row `p` of the products, at `q`.
  Each stage below is the body's own operations on a whole vector; its lemma reads it at coordinates.
-/
import proofs.«132448_g49108656063244_cont_8to1_c_419_2_alg».proof.Proof.Gen.KernelIdeal.Skeleton
import proofs.«132448_g49108656063244_cont_8to1_c_419_2_alg».proof.Proof.KerContr
import proofs.«132448_g49108656063244_cont_8to1_c_419_2_alg».proof.Proof.RowLaw
import proofs.«132448_g49108656063244_cont_8to1_c_419_2_alg».proof.Proof.LibCols
import Idealize.ShloMosaic.PureOps.Ideal.Laws
import Idealize.ShloMosaic.Lib.ValueIdx
import Idealize.ShloMosaic.Lib.Pipeline.Value

noncomputable section

namespace Cert.KernelIdeal.Pay

open Idealize.ShloMosaic Idealize.ShloMosaic.ValueIdx Cert.KernelIdeal Finset BigOperators

/-- The sum along each row. -/
def rowsum (v : FVec Ideal S400x128 .f32) : FVec Ideal S400 .f32 :=
  multiReduction .add [1] S400 v 0x00000000#32 Facts₀.reduces_S400x128_S400 (.inl rfl) rfl

theorem rowsum_apply (v : FVec Ideal S400x128 .f32) (p : Fin 400) :
    rowsum v (ix1 p) = ∑ j : Fin 128, v (ix2 p j) := by
  unfold rowsum
  refine (Ideal.multiReduction_add_single v 0x00000000#32 Facts₀.reduces_S400x128_S400 (.inl rfl) rfl (ix1 p)).trans ?_
  exact Finset.sum_congr rfl fun k _ => congrArg v (funext fun a => Fin.ext (by
    match a with
    | ⟨0, _⟩ => rfl
    | ⟨1, _⟩ => rfl))

/-- The row means, as a column. -/
def meanCol (v : FVec Ideal S400x128 .f32) : FVec Ideal S400x1 .f32 :=
  divf (shapeCast S400x1 (rowsum v) Facts₀.shapeCasts_S400_S400x1)
    (broadcast S400x1 (Scalar.ofBits .f32 0x43000000#32 : Ideal .f32))

theorem meanCol_apply (v : FVec Ideal S400x128 .f32) (p : Fin 400) (u : Fin 1) :
    meanCol v (ix2 p u) = Cert.Row.kmean (fun j => v (ix2 p j)) := by
  unfold meanCol Cert.Row.kmean Cert.Row.c128
  rw [divf_apply, Cert.LibCols.shapeCast_a_a1_apply, rowsum_apply, broadcast_apply]
  rfl

/-- The deviations from the row mean. -/
def dev (v : FVec Ideal S400x128 .f32) : FVec Ideal S400x128 .f32 :=
  subf v (broadcastTo S400x128 (meanCol v) Facts₀.broadcasts_S400x1_S400x128)

theorem dev_apply (v : FVec Ideal S400x128 .f32) (p : Fin 400) (j : Fin 128) :
    dev v (ix2 p j) = Cert.Row.kdev (fun j => v (ix2 p j)) j := by
  unfold dev Cert.Row.kdev
  rw [subf_apply, Cert.LibCols.broadcastTo_a1_ab_apply, meanCol_apply]

/-- The row variances, as a column. -/
def varCol (v : FVec Ideal S400x128 .f32) : FVec Ideal S400x1 .f32 :=
  divf (shapeCast S400x1 (rowsum (mulf (dev v) (dev v))) Facts₀.shapeCasts_S400_S400x1)
    (broadcast S400x1 (Scalar.ofBits .f32 0x43000000#32 : Ideal .f32))

theorem varCol_apply (v : FVec Ideal S400x128 .f32) (p : Fin 400) (u : Fin 1) :
    varCol v (ix2 p u) = Cert.Row.kvar (fun j => v (ix2 p j)) := by
  unfold varCol Cert.Row.kvar Cert.Row.c128
  rw [divf_apply, Cert.LibCols.shapeCast_a_a1_apply, rowsum_apply, broadcast_apply]
  simp only [mulf_apply, dev_apply]
  rfl

/-- The normalised rows. -/
def normed (v : FVec Ideal S400x128 .f32) : FVec Ideal S400x128 .f32 :=
  mulf (dev v)
    (broadcastTo S400x128
      (rsqrt (addf (varCol v) (broadcast S400x1 (Scalar.ofBits .f32 0x3727C5AC#32 : Ideal .f32))))
      Facts₀.broadcasts_S400x1_S400x128)

theorem normed_apply (v : FVec Ideal S400x128 .f32) (p : Fin 400) (q : Fin 128) :
    normed v (ix2 p q) = Cert.Row.knorm (fun j => v (ix2 p j)) q := by
  unfold normed Cert.Row.knorm Cert.Row.eps
  rw [mulf_apply, dev_apply, Cert.LibCols.broadcastTo_a1_ab_apply]
  show _ * Ideal.rsqrt (varCol v (ix2 p (0 : Fin 1)) + Ideal.ofBits .f32 0x3727C5AC#32) = _
  rw [varCol_apply]

/-- Everything after the products. -/
def tail (v : FVec Ideal S400x128 .f32) : FVec Ideal S400x128 .f32 :=
  select (cmpf .oge (normed v) (broadcast S400x128 (Scalar.ofBits .f32 0x00000000#32 : Ideal .f32))) (normed v)
    (mulf (broadcast S400x128 (Scalar.ofBits .f32 0x3C23D70A#32 : Ideal .f32)) (normed v))

theorem tail_apply (v : FVec Ideal S400x128 .f32) (p : Fin 400) (q : Fin 128) :
    tail v (ix2 p q) = Cert.Row.krow (fun j => v (ix2 p j)) q := by
  unfold tail Cert.Row.krow Cert.Row.z Cert.Row.slope
  rw [select_apply, cmpf_apply, mulf_apply, broadcast_apply, broadcast_apply, normed_apply]
  rfl

/-- The body's payload is those stages after the two products: the definitions unfold to the same term. -/
theorem pay_eq (x0 : FVec Ideal S400x10000 .f32) (x1 : FVec Ideal S10000x128 .f32) (x2 : FVec Ideal S128x128 .f32) :
    Gen.k0_pay1 (F := Ideal) x0 x1 x2 = tail (Contr.prod x0 x1 x2) := rfl

/-- The stored value at `(p, q)`: the kernel's row function of row `p` of `(block · X) · Wᵀ`, at `q`. -/
theorem pay_apply (x0 : FVec Ideal S400x10000 .f32) (x1 : FVec Ideal S10000x128 .f32) (x2 : FVec Ideal S128x128 .f32)
    (p : Fin 400) (q : Fin 128) :
    Gen.k0_pay1 (F := Ideal) x0 x1 x2 (ix2 p q) = Cert.Row.krow (fun j => Cert.Spec.entry x0 x1 x2 p j) q := by
  rw [pay_eq, tail_apply]
  simp only [Contr.prod_apply]

end Cert.KernelIdeal.Pay

end
-- ==== Proof.KerBlocks.lean ====
/-
  From blocks to the array: what the kernel's result array holds after the run.

  The grid has 25 points. At point `t` the pipeline stages rows `400 t … 400 t + 399` of `A`, the whole of `X` and
  the whole of `W`, runs the body, and writes the 400 × 128 block back to rows `400 t … 400 t + 399` of the result.
  The body's stored value at `(p, q)` is the kernel's row function of row `p` of `(block · X) · Wᵀ` (KerPay), and
  row `p` of block `t` is row `400 t + p` of `A`, so what point `t` writes back is block `t` of ONE function `G` of
  the three argument arrays: `G (r, q) = Row.krow (row r of (A · X) · Wᵀ) q`. The 25 blocks tile the 10000 rows
  (row `r` lies in block `r / 400`), hence after the run the result array is `G`.
-/
import proofs.«132448_g49108656063244_cont_8to1_c_419_2_alg».proof.Proof.Gen.KernelIdeal.Value
import proofs.«132448_g49108656063244_cont_8to1_c_419_2_alg».proof.Proof.KerPay
import Idealize.ShloMosaic.Lib.Pipeline.Value
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array as one function of the argument arrays: at `(r, q)` the kernel's row function of row `r`
    of `(A · X) · Wᵀ`, at `q`. -/
def G (a : S10000x10000.Idx → EReal) (x : S10000x128.Idx → EReal) (w : S128x128.Idx → EReal) :
    S10000x128.Idx → EReal :=
  fun i => Cert.Row.krow (fun j => Cert.Spec.entry a x w (i 0) j) (i 1)

theorem G_ix2 (a : S10000x10000.Idx → EReal) (x : S10000x128.Idx → EReal) (w : S128x128.Idx → EReal)
    (r : Fin 10000) (q : Fin 128) :
    G a x w (ix2 r q) = Cert.Row.krow (fun j => Cert.Spec.entry a x w r j) q := rfl

theorem hz : (![0, 0] : Fin 2 → Nat) = fun _ => 0 := funext fun a => by fin_cases a <;> rfl

/-- Where each window's block sits at point `t`, decided over the 25 points: the block of `A` and the result's
    block are the `t`-th along the rows, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ t.val < 25 :=
  (by decide +kernel : ∀ t : Fin grid0.N, _)

/-! ### The input blocks as parts of the argument arrays -/

/-- Row `p` of the block of `A` at point `t` is row `400 t + p` of `A`. -/
theorem iblk0_apply (c : Dev nD) (t : Fin cfg0.N) (p : Fin 400) (l : Fin 10000) (r : Fin 10000)
    (hr : r.val = 400 * t.val + p.val) :
    (iblk m c 0 t : Vec Ideal S400x10000 .f32) (ix2 p l) = (V m c main_arg0 : S10000x10000.Idx → EReal) (ix2 r l) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 400 + 1 * p.val = r.val; rw [e0, hr]; omega
  | ⟨1, _⟩ => show win0_0.index t 1 * 10000 + 1 * l.val = l.val; rw [e1]; omega

/-- The block of `X` at every point is the whole of `X`. -/
theorem iblk1_eq (c : Dev nD) (t : Fin cfg0.N) :
    (iblk m c 1 t : Vec Ideal S10000x128 .f32) = (V m c main_arg1 : S10000x128.Idx → EReal) := by
  obtain ⟨-, -, e0, e1, -⟩ := idx_facts t
  funext y
  unfold iblk
  rw [View.read_apply]
  show V m c main_arg1 _ = V m c main_arg1 _
  congr 1
  funext a
  apply Fin.ext
  match a with
  | ⟨0, _⟩ => show win0_1.index t 0 * 10000 + 1 * (y 0).val = (y 0).val; rw [e0]; omega
  | ⟨1, _⟩ => show win0_1.index t 1 * 128 + 1 * (y 1).val = (y 1).val; rw [e1]; omega

/-- The block of `W` at every point is the whole of `W`. -/
theorem iblk2_eq (c : Dev nD) (t : Fin cfg0.N) :
    (iblk m c 2 t : Vec Ideal S128x128 .f32) = (V m c main_arg2 : S128x128.Idx → EReal) := by
  obtain ⟨-, -, -, -, e0, e1, -⟩ := idx_facts t
  funext y
  unfold iblk
  rw [View.read_apply]
  show V m c main_arg2 _ = V m c main_arg2 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-! ### One stored entry -/

/-- The body's stored value at block index `j`, for a block `x0` whose row `j 0` is row `i 0` of `a`, is `G` at the
    array index `i` with the same column. -/
theorem point_eq (a : S10000x10000.Idx → EReal) (x : S10000x128.Idx → EReal) (w : S128x128.Idx → EReal)
    (x0 : FVec Ideal S400x10000 .f32) (j : S400x128.Idx) (i : S10000x128.Idx)
    (hi1 : (i 1).val = (j 1).val)
    (h0 : ∀ l : Fin 10000, x0 (ix2 (⟨(j 0).val, (j 0).isLt⟩ : Fin 400) l) = a (ix2 (⟨(i 0).val, (i 0).isLt⟩ : Fin 10000) l)) :
    Gen.k0_pay1 (F := Ideal) x0 x w j = G a x w i := by
  obtain ⟨p, q, rfl⟩ : ∃ (p : Fin 400) (q : Fin 128), j = ix2 p q := ⟨j 0, j 1, eq_ix2 j⟩
  obtain ⟨r, s, rfl⟩ : ∃ (r : Fin 10000) (s : Fin 128), i = ix2 r s := ⟨i 0, i 1, eq_ix2 i⟩
  obtain rfl : s = q := Fin.ext hi1
  rw [Cert.KernelIdeal.Pay.pay_apply, G_ix2]
  exact congrArg (fun ρ' => Cert.Row.krow ρ' s) (funext fun j' => Cert.Spec.entry_block x0 a x w p r h0 j')

/-! ### What a point writes back, the cover, the array -/

/-- What point `t` writes back is block `t` of `G` of the argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Cert.KernelIdeal.Value.flushed3]
  unfold out0_3
  rw [View.canon_unit_zero hz]
  simp only [View.ld_unit_zero (S := S400x10000) hz, View.ld_unit_zero (S := S10000x128) hz,
    View.ld_unit_zero (S := S128x128) hz]
  obtain ⟨e0, e1, e2, e3, e4, e5, e6, e7, ht⟩ := idx_facts t
  refine funext fun (j : S400x128.Idx) => ?_
  show Gen.k0_pay1 (F := Ideal) (iblk m c 0 t) (iblk m c 1 t) (iblk m c 2 t) j
    = G (V m c main_arg0) (V m c main_arg1) (V m c main_arg2) (((cfg0.win 3).blk t).view.emb j)
  rw [iblk1_eq m c t, iblk2_eq m c t]
  refine point_eq (V m c main_arg0) (V m c main_arg1) (V m c main_arg2) (iblk m c 0 t) j
    (((cfg0.win 3).blk t).view.emb j) ?_ ?_
  · show win0_3.index t 1 * 128 + 1 * (j 1).val = (j 1).val
    rw [e7]; omega
  · intro l
    refine iblk0_apply m c t _ l _ ?_
    show win0_3.index t 0 * 400 + 1 * (j 0).val = 400 * t.val + (j 0).val
    rw [e6]; omega

/-- An index of the result array is in point `t`'s block iff each coordinate is in the block's range. -/
theorem mem_blk (t : Fin cfg0.N) (i : S10000x128.Idx) :
    i ∈ ((cfg0.win 3).blk t).view.set
      ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- Every index of the result array is in some point's block: row `r` in block `r / 400`. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  have htv : t.val = (i 0).val / 400 := rfl
  obtain ⟨-, -, -, -, -, -, e6, e7, -⟩ := idx_facts t
  refine ⟨t, flush0_3 t, ?_⟩
  rw [mem_blk]
  intro a
  match a with
  | ⟨0, _⟩ =>
    show win0_3.index t 0 * 400 ≤ (i 0).val ∧ (i 0).val < win0_3.index t 0 * 400 + 400
    rw [e6, htv]; omega
  | ⟨1, _⟩ =>
    show win0_3.index t 1 * 128 ≤ (i 1).val ∧ (i 1).val < win0_3.index t 1 * 128 + 128
    rw [e7]; omega

/-- After the run the result array is `G` of the argument arrays. -/
theorem final (c : Dev nD) :
    (dats m 0 c).arrAt 3 cfg0.N = G (V m c main_arg0) (V m c main_arg1) (V m c main_arg2) :=
  (dats m 0 c).arrAt_eq_of_cover 3 (G (V m c main_arg0) (V m c main_arg1) (V m c main_arg2))
    (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
          = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Blocks

end
-- ==== Proof.RefTerm.lean ====
/-
  The reference program's result as ONE pure term of its three argument arrays.

  The reference computes, on whole arrays, `h = A · X`, `o = h · Wᵀ` (the transpose taken first, then a plain
  contraction of `o`'s second axis with the transposed array's first), and then, row by row of `o`:
  the mean `μ = (Σⱼ oⱼ) / 128`; the variance `σ² = (Σⱼ (oⱼ − μ)²) / (128 − 0)`, selected against a
  not-a-number fill on the test `128 − 0 > 0` (the library routine's guard for a non-positive count);
  `y = (o − μ) / √(σ² + ε)`; and the result `y` where `y ≥ 0`, else `0.01 · y`.
  `mm` is the first part (the two contractions), `tail` the rest, `out` their composite. The term lists the
  program's host operations one for one, in the program's order, over the program's own shape records.
-/
import proofs.«132448_g49108656063244_cont_8to1_c_419_2_alg».proof.ReferenceIdeal

noncomputable section

namespace Cert.ReferenceIdeal.Term

open Idealize.ShloMosaic Cert.ReferenceIdeal
open Cert.ReferenceIdeal.Facts₀

variable {F : FTy → Type} [FloatOps F] [Cert.ReferenceIdeal.Facts]

/-- The two contractions: `(A · X) · Wᵀ`. -/
def mm (a : FVec F S10000x10000 .f32) (x : FVec F S10000x128 .f32) (w : FVec F S128x128 .f32) : FVec F S10000x128 .f32 :=
  Host.dotGeneral dot_S10000x128_S128x128_S10000x128_1_0_0_1_n_n none
    (Host.dotGeneral dot_S10000x10000_S10000x128_S10000x128_1_0_0_1_n_n none a x)
    (transpose S128x128 [1, 0] w transposes_S128x128_S128x128_1_0)

/-- The row mean, as a column: `(Σⱼ oⱼ) / 128`. -/
def mean (o : FVec F S10000x128 .f32) : FVec F S10000x1 .f32 :=
  Host.divf
    (broadcastInDim S10000x1 ![0] bcast_S10000_S10000x1_0
      (Host.reduceAdd o (constant S_ .f32 0x00000000#32) reducesTo_S10000x128_S10000_d1 h_S_))
    (broadcastInDim S10000x1 ![] bcast_S_S10000x1 (constant S_ .f32 0x43000000#32))

/-- The count the variance divides by: `128 − (0 as a float)`. -/
def cnt : FVec F S_ .f32 :=
  subf (constant S_ .f32 0x43000000#32) (sitofp .f32 (constantI S_ 32 0#32))

/-- The row variance, as a column: the mean of the squared deviations over the count, kept where the count is
    positive (else the fill). -/
def var (o : FVec F S10000x128 .f32) : FVec F S10000x1 .f32 :=
  select
    (broadcastInDim S10000x1 ![] bcast_S_S10000x1 (cmpf .ogt (cnt (F := F)) (constant S_ .f32 0x00000000#32)))
    (Host.divf
      (broadcastInDim S10000x1 ![0] bcast_S10000_S10000x1_0
        (Host.reduceAdd
          (mulf (subf o (broadcastInDim S10000x128 ![0, 1] bcast_S10000x1_S10000x128_0_1 (mean o)))
                (subf o (broadcastInDim S10000x128 ![0, 1] bcast_S10000x1_S10000x128_0_1 (mean o))))
          (constant S_ .f32 0x00000000#32) reducesTo_S10000x128_S10000_d1 h_S_))
      (broadcastInDim S10000x1 ![] bcast_S_S10000x1 (cnt (F := F))))
    (broadcastInDim S10000x1 ![] bcast_S_S10000x1 (id (constant S_ .f32 0x7FC00000#32)))

/-- The normalised rows: `(o − μ) / √(σ² + ε)`. -/
def normed (o : FVec F S10000x128 .f32) : FVec F S10000x128 .f32 :=
  Host.divf
    (subf o (broadcastInDim S10000x128 ![0, 1] bcast_S10000x1_S10000x128_0_1 (mean o)))
    (broadcastInDim S10000x128 ![0, 1] bcast_S10000x1_S10000x128_0_1
      (Host.sqrt (addf (var o) (broadcastInDim S10000x1 ![] bcast_S_S10000x1 (constant S_ .f32 0x3727C5AC#32)))))

/-- Everything after the contractions: normalise, then keep the non-negative entries and scale the others. -/
def tail (o : FVec F S10000x128 .f32) : FVec F S10000x128 .f32 :=
  select
    (cmpf .oge (normed o) (broadcastInDim S10000x128 ![] bcast_S_S10000x128 (constant S_ .f32 0x00000000#32)))
    (normed o)
    (mulf (broadcastInDim S10000x128 ![] bcast_S_S10000x128 (constant S_ .f32 0x3C23D70A#32)) (normed o))

/-- The reference's result. -/
def out (a : FVec F S10000x10000 .f32) (x : FVec F S10000x128 .f32) (w : FVec F S128x128 .f32) : FVec F S10000x128 .f32 :=
  tail (mm a x w)

end Cert.ReferenceIdeal.Term

end
-- ==== Proof.RefRun.lean ====
/-
  The reference program as one straight line of whole-array operations, and what a run of it leaves behind.

  The program computes two contractions, then per row a mean, a variance, a normalisation and an elementwise
  selection. Three of its steps are calls of local functions: the row variance (twenty operations, the last of
  them a call of a guarded selection of three operations) and the final selection (one operation). A call runs
  the callee's operations on the arrays of that call, so the whole program is the list of its forty-eight
  operations in execution order: ten, then the variance's twenty and its selection's three, then fourteen, then
  the final selection.

  Every operation writes one array of its own and reads arrays written earlier (or the three arguments), so after
  the list has run the contents of the last array are the composite of the operations' functions along the data
  flow, and that composite is `Term.out` of the three arguments, subterm for subterm. No operation writes an
  argument, so the arguments end as they began.
-/
import proofs.«132448_g49108656063244_cont_8to1_c_419_2_alg».proof.Proof.RefTerm
import proofs.«132448_g49108656063244_cont_8to1_c_419_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The forty-eight operations in execution order. Lines 1–10: the two contractions, the row sums and the mean,
    and the integer zero the variance is called with. Lines 11–30: the variance's own operations on the product
    (its mean again, the squared deviations, the count `128 − 0`, the quotient, the test `count > 0`, the fill);
    lines 31–33 its guarded selection. Lines 34–47: centre, add `ε`, root, divide, and the two candidates of the
    last selection; line 48 that selection. -/
abbrev ops : List (HloOp τ sig (Elt F)) :=
  [ binary main_arg0 main_arg1 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg2 main_v1 ((transpose S128x128 [1, 0] · transposes_S128x128_S128x128_1_0) : (⟨S128x128, .f32⟩ : BufTy).Contents (Elt F) → (⟨S128x128, .f32⟩ : BufTy).Contents (Elt F)),
    binary main_v0 main_v1 main_v2 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    nullary main_cst (constant S_ .f32 0x00000000#32),
    binary main_v2 main_cst main_v3 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v3 main_v4 (broadcastInDim S10000x1 ![0] bcast_S10000_S10000x1_0 : (⟨S10000, .f32⟩ : BufTy).Contents (Elt F) → (⟨S10000x1, .f32⟩ : BufTy).Contents (Elt F)),
    nullary main_cst_0 (constant S_ .f32 0x43000000#32),
    unary main_cst_0 main_v5 (broadcastInDim S10000x1 ![] bcast_S_S10000x1 : (⟨S_, .f32⟩ : BufTy).Contents (Elt F) → (⟨S10000x1, .f32⟩ : BufTy).Contents (Elt F)),
    binary main_v4 main_v5 main_v6 (Host.divf : (⟨S10000x1, .f32⟩ : BufTy).Contents (Elt F) → (⟨S10000x1, .f32⟩ : BufTy).Contents (Elt F) → (⟨S10000x1, .f32⟩ : BufTy).Contents (Elt F)),
    nullary main_c (constantI S_ 32 0#32),
    -- the row variance, on the product and that zero
    TRef.nullary main_call0.cst (constant S_ .f32 0x00000000#32),
    TRef.binary (.of main_v2 : TRef sig ⟨S10000x128, .f32⟩) main_call0.cst main_call0.v0 (fun x v => Host.reduceAdd x v reducesTo_S10000x128_S10000_d1 h_S_),
    TRef.unary main_call0.v0 main_call0.v1 (broadcastInDim S10000x1 ![0] bcast_S10000_S10000x1_0),
    TRef.nullary main_call0.cst_0 (constant S_ .f32 0x43000000#32),
    TRef.unary main_call0.cst_0 main_call0.v2 (broadcastInDim S10000x1 ![] bcast_S_S10000x1),
    TRef.binary main_call0.v1 main_call0.v2 main_call0.v3 Host.divf,
    TRef.unary main_call0.v3 main_call0.v4 (broadcastInDim S10000x128 ![0, 1] bcast_S10000x1_S10000x128_0_1),
    TRef.binary (.of main_v2 : TRef sig ⟨S10000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S10000_d1 h_S_),
    TRef.unary main_call0.v9 main_call0.v10 (broadcastInDim S10000x1 ![0] bcast_S10000_S10000x1_0),
    TRef.unary main_call0.v8 main_call0.v11 (broadcastInDim S10000x1 ![] bcast_S_S10000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    -- its guarded selection: the quotient where the count is positive, else the fill
    TRef.unary main_call0.cst_4 main_call0.call0.v0 id,
    TRef.unary main_call0.call0.v0 main_call0.call0.v1 (broadcastInDim S10000x1 ![] bcast_S_S10000x1),
    TRef.ternary main_call0.v13 main_call0.v12 main_call0.call0.v1 main_call0.call0.v2 (fun p a b => select (broadcastInDim S10000x1 ![] bcast_S_S10000x1 p) a b),
    -- normalise
    unary main_v6 main_v8 (broadcastInDim S10000x128 ![0, 1] bcast_S10000x1_S10000x128_0_1 : (⟨S10000x1, .f32⟩ : BufTy).Contents (Elt F) → (⟨S10000x128, .f32⟩ : BufTy).Contents (Elt F)),
    binary main_v2 main_v8 main_v9 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v10 (broadcastInDim S10000x1 ![] bcast_S_S10000x1 : (⟨S_, .f32⟩ : BufTy).Contents (Elt F) → (⟨S10000x1, .f32⟩ : BufTy).Contents (Elt F)),
    binary main_v7 main_v10 main_v11 (addf : (⟨S10000x1, .f32⟩ : BufTy).Contents (Elt F) → (⟨S10000x1, .f32⟩ : BufTy).Contents (Elt F) → (⟨S10000x1, .f32⟩ : BufTy).Contents (Elt F)),
    unary main_v11 main_v12 (Host.sqrt : (⟨S10000x1, .f32⟩ : BufTy).Contents (Elt F) → (⟨S10000x1, .f32⟩ : BufTy).Contents (Elt F)),
    unary main_v12 main_v13 (broadcastInDim S10000x128 ![0, 1] bcast_S10000x1_S10000x128_0_1 : (⟨S10000x1, .f32⟩ : BufTy).Contents (Elt F) → (⟨S10000x128, .f32⟩ : BufTy).Contents (Elt F)),
    binary main_v9 main_v13 main_v14 (Host.divf : (⟨S10000x128, .f32⟩ : BufTy).Contents (Elt F) → (⟨S10000x128, .f32⟩ : BufTy).Contents (Elt F) → (⟨S10000x128, .f32⟩ : BufTy).Contents (Elt F)),
    nullary main_cst_2 (constant S_ .f32 0x00000000#32),
    unary main_cst_2 main_v15 (broadcastInDim S10000x128 ![] bcast_S_S10000x128 : (⟨S_, .f32⟩ : BufTy).Contents (Elt F) → (⟨S10000x128, .f32⟩ : BufTy).Contents (Elt F)),
    binary main_v14 main_v15 main_v16 (cmpf .oge : (⟨S10000x128, .f32⟩ : BufTy).Contents (Elt F) → (⟨S10000x128, .f32⟩ : BufTy).Contents (Elt F) → (⟨S10000x128, .i1⟩ : BufTy).Contents (Elt F)),
    nullary main_cst_3 (constant S_ .f32 0x3C23D70A#32),
    unary main_cst_3 main_v17 (broadcastInDim S10000x128 ![] bcast_S_S10000x128 : (⟨S_, .f32⟩ : BufTy).Contents (Elt F) → (⟨S10000x128, .f32⟩ : BufTy).Contents (Elt F)),
    binary main_v17 main_v14 main_v18 (mulf : (⟨S10000x128, .f32⟩ : BufTy).Contents (Elt F) → (⟨S10000x128, .f32⟩ : BufTy).Contents (Elt F) → (⟨S10000x128, .f32⟩ : BufTy).Contents (Elt F)),
    -- the last selection
    TRef.ternary (.of main_v16 : TRef sig ⟨S10000x128, .i1⟩) (.of main_v14 : TRef sig ⟨S10000x128, .f32⟩) (.of main_v18 : TRef sig ⟨S10000x128, .f32⟩) main_call1.v0 select ]

-- forty-eight sequencing steps to re-associate, one level of recursion each
set_option maxRecDepth 1024 in
/-- The program is that list run in order: with the three local functions replaced by their bodies at the calls,
    both sides are the same chain of single steps once the nested sequencing is flattened. -/
theorem main_eq (c : Dev nD) : main (F := F) c = seq ops := by
  simp only [main, fn_var.body, fn_where.body, fn_where_0.body, seq, bind_assoc, pure_bind]

/-- No array of this program is local to a region, and it has no semaphore: both by enumeration. -/
theorem scopedRefs_eq : (Finset.univ.filter fun b : Ref sig .tc => b.isScoped) = ∅ := by decide
theorem scopedSems_eq : (Finset.univ.filter fun sm : SemLoc sig => sm.isScoped .tc) = ∅ := by decide

/-- Every operation touches only arrays of the one core's table. -/
theorem ops_sub : (ops : List (HloOp τ sig (Elt F))).Forall fun op => op.bufs ⊆ tcRefs τ sig :=
  ⟨binary_bufs_sub .., unary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..⟩

/-- From any contents `V`, the list leaves the last array at `Term.out` of the arguments' contents: unrolling the
    list, each operation's effect at an array is its function's value if it writes that array and nothing
    otherwise; following that from the last array backwards composes the functions along the data flow. -/
theorem out_eq (V : Valuation τ sig (Elt F)) :
    after ops V (main_v19 : DevRef τ sig)
      = Term.out (V (main_arg0 : DevRef τ sig)) (V (main_arg1 : DevRef τ sig)) (V (main_arg2 : DevRef τ sig)) := by
  after_results_simp
  rfl

/-- No operation writes an argument. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp

/-- On every device, for any float values, from any memory with zero counters: every weakly fair execution of the
    program terminates with the last array at `Term.out` of the arguments' initial contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = Term.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.RefAt.lean ====
/-
  The reference's result read at one entry.

  The reference forms `o = (A · X) · Wᵀ` by two plain contractions, the second against the transposed array,
  so entry `(r, j)` of `o` is `Σₖ (Σₗ A[r, l] · X[l, k]) · W[j, k]`: the double sum `Spec.entry`. Everything
  after that works on one row of `o` at a time: the row sum (from an initial zero) over 128 is the mean; the
  deviations from it, squared and summed (again from zero) over the count `128 − 0`, kept where that count is
  positive, are the variance; a deviation over the square root of variance plus ε is the normalised entry;
  and the result is that entry where it is non-negative, else 0.01 times it. Read at `(r, q)` each of these
  is the matching stage of `Row.rrow` applied to row `r` of `o`: columns made from row quantities read the
  same whatever the coordinate on the repeated axis.
-/
import proofs.«132448_g49108656063244_cont_8to1_c_419_2_alg».proof.Proof.RefTerm
import proofs.«132448_g49108656063244_cont_8to1_c_419_2_alg».proof.Proof.Gen.ReferenceIdeal
import proofs.«132448_g49108656063244_cont_8to1_c_419_2_alg».proof.Proof.Spec
import proofs.«132448_g49108656063244_cont_8to1_c_419_2_alg».proof.Proof.RowLaw
import proofs.«132448_g49108656063244_cont_8to1_c_419_2_alg».proof.Proof.LibCols
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.At

open Idealize.ShloMosaic Idealize.ShloMosaic.ValueIdx Cert.ReferenceIdeal Finset BigOperators

/-! ### `A · X`: the columns of `A` summed against the rows of `X` -/

theorem lhsA_0 (i : S10000x128.Idx) (q : dot_S10000x10000_S10000x128_S10000x128_1_0_0_1_n_n.contr.Idx) :
    (dot_S10000x10000_S10000x128_S10000x128_1_0_0_1_n_n.lhsIdx i q 0).val = (i 0).val := by
  unfold DotDims.lhsIdx
  rw [dif_neg (show ¬(0 : Fin S10000x10000.rank) ∈ dot_S10000x10000_S10000x128_S10000x128_1_0_0_1_n_n.lhsBatch by decide),
    dif_pos (show (0 : Fin S10000x10000.rank) ∈ dot_S10000x10000_S10000x128_S10000x128_1_0_0_1_n_n.lhsNonContracting by decide)]
  rfl
theorem lhsA_1 (i : S10000x128.Idx) (q : dot_S10000x10000_S10000x128_S10000x128_1_0_0_1_n_n.contr.Idx) :
    (dot_S10000x10000_S10000x128_S10000x128_1_0_0_1_n_n.lhsIdx i q 1).val = (q ⟨0, by decide⟩).val :=
  dot_S10000x10000_S10000x128_S10000x128_1_0_0_1_n_n.lhsIdx_val_of_single rfl i q
theorem rhsA_0 (i : S10000x128.Idx) (q : dot_S10000x10000_S10000x128_S10000x128_1_0_0_1_n_n.contr.Idx) :
    (dot_S10000x10000_S10000x128_S10000x128_1_0_0_1_n_n.rhsIdx i q 0).val = (q ⟨0, by decide⟩).val :=
  dot_S10000x10000_S10000x128_S10000x128_1_0_0_1_n_n.rhsIdx_val_of_single rfl i q
theorem rhsA_1 (i : S10000x128.Idx) (q : dot_S10000x10000_S10000x128_S10000x128_1_0_0_1_n_n.contr.Idx) :
    (dot_S10000x10000_S10000x128_S10000x128_1_0_0_1_n_n.rhsIdx i q 1).val = (i 1).val := by
  unfold DotDims.rhsIdx
  rw [dif_neg (show ¬(1 : Fin S10000x128.rank) ∈ dot_S10000x10000_S10000x128_S10000x128_1_0_0_1_n_n.rhsBatch by decide),
    dif_pos (show (1 : Fin S10000x128.rank) ∈ dot_S10000x10000_S10000x128_S10000x128_1_0_0_1_n_n.rhsNonContracting by decide)]
  rfl

/-- Where this product reads its left factor: the result's row, then the summed coordinate. -/
abbrev lidxA (i : S10000x128.Idx) (k : Fin 10000) : S10000x10000.Idx := fun a => match a with
  | ⟨0, _⟩ => ⟨(i 0).val, (i 0).isLt⟩
  | ⟨1, _⟩ => ⟨k.val, k.isLt⟩
/-- Where it reads its right factor: the summed coordinate, then the result's column. -/
abbrev ridxA (i : S10000x128.Idx) (k : Fin 10000) : S10000x128.Idx := fun a => match a with
  | ⟨0, _⟩ => ⟨k.val, k.isLt⟩
  | ⟨1, _⟩ => ⟨(i 1).val, (i 1).isLt⟩

/-- The product at an index: the sum over the 10000 values of the summed coordinate. -/
theorem mmA_apply (l : FVec Ideal S10000x10000 .f32) (r : FVec Ideal S10000x128 .f32) (i : S10000x128.Idx) :
    Host.dotGeneral dot_S10000x10000_S10000x128_S10000x128_1_0_0_1_n_n none l r i
      = ∑ k : Fin 10000, l (lidxA i k) * r (ridxA i k) := by
  simp only [Host.dotGeneral]
  rw [Ideal.dotGeneral_apply,
    ← Equiv.sum_comp (contrEquiv1 dot_S10000x10000_S10000x128_S10000x128_1_0_0_1_n_n 10000 rfl rfl).symm]
  refine Finset.sum_congr rfl fun k _ => ?_
  have hk := contrEquiv1_symm_val dot_S10000x10000_S10000x128_S10000x128_1_0_0_1_n_n 10000 rfl rfl k
  have el : dot_S10000x10000_S10000x128_S10000x128_1_0_0_1_n_n.lhsIdx i
      ((contrEquiv1 dot_S10000x10000_S10000x128_S10000x128_1_0_0_1_n_n 10000 rfl rfl).symm k) = lidxA i k :=
    funext fun a => Fin.ext (by
      match a with
      | ⟨0, _⟩ => exact lhsA_0 _ _
      | ⟨1, _⟩ => exact (lhsA_1 _ _).trans hk)
  have er : dot_S10000x10000_S10000x128_S10000x128_1_0_0_1_n_n.rhsIdx i
      ((contrEquiv1 dot_S10000x10000_S10000x128_S10000x128_1_0_0_1_n_n 10000 rfl rfl).symm k) = ridxA i k :=
    funext fun a => Fin.ext (by
      match a with
      | ⟨0, _⟩ => exact (rhsA_0 _ _).trans hk
      | ⟨1, _⟩ => exact rhsA_1 _ _)
  rw [el, er]

theorem lidxA_ix2 (p : Fin 10000) (q : Fin 128) (k : Fin 10000) : lidxA (ix2 p q) k = ix2 p k :=
  funext fun a => match a with | ⟨0, _⟩ => rfl | ⟨1, _⟩ => rfl
theorem ridxA_ix2 (p : Fin 10000) (q : Fin 128) (k : Fin 10000) : ridxA (ix2 p q) k = ix2 k q :=
  funext fun a => match a with | ⟨0, _⟩ => rfl | ⟨1, _⟩ => rfl

/-- The product at `(p, q)`: `Σₖ l[p, k] · r[k, q]`. -/
theorem mmA_ix2 (l : FVec Ideal S10000x10000 .f32) (r : FVec Ideal S10000x128 .f32) (p : Fin 10000) (q : Fin 128) :
    Host.dotGeneral dot_S10000x10000_S10000x128_S10000x128_1_0_0_1_n_n none l r (ix2 p q)
      = ∑ k : Fin 10000, l (ix2 p k) * r (ix2 k q) := by
  rw [mmA_apply]
  exact Finset.sum_congr rfl fun k _ => by rw [lidxA_ix2, ridxA_ix2]

/-! ### That product times the transposed `W`: its columns summed against the transposed array's rows -/

theorem lhsB_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhsB_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsB_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsB_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- Where this product reads its left factor: the result's row, then the summed coordinate. -/
abbrev lidxB (i : S10000x128.Idx) (k : Fin 128) : S10000x128.Idx := fun a => match a with
  | ⟨0, _⟩ => ⟨(i 0).val, (i 0).isLt⟩
  | ⟨1, _⟩ => ⟨k.val, k.isLt⟩
/-- Where it reads its right factor: the summed coordinate, then the result's column. -/
abbrev ridxB (i : S10000x128.Idx) (k : Fin 128) : S128x128.Idx := fun a => match a with
  | ⟨0, _⟩ => ⟨k.val, k.isLt⟩
  | ⟨1, _⟩ => ⟨(i 1).val, (i 1).isLt⟩

/-- The product at an index: the sum over the 128 values of the summed coordinate. -/
theorem mmB_apply (l : FVec Ideal S10000x128 .f32) (r : FVec Ideal S128x128 .f32) (i : S10000x128.Idx) :
    Host.dotGeneral dot_S10000x128_S128x128_S10000x128_1_0_0_1_n_n none l r i
      = ∑ k : Fin 128, l (lidxB i k) * r (ridxB i k) := by
  simp only [Host.dotGeneral]
  rw [Ideal.dotGeneral_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx i
      ((contrEquiv1 dot_S10000x128_S128x128_S10000x128_1_0_0_1_n_n 128 rfl rfl).symm k) = lidxB i k :=
    funext fun a => Fin.ext (by
      match a with
      | ⟨0, _⟩ => exact lhsB_0 _ _
      | ⟨1, _⟩ => exact (lhsB_1 _ _).trans hk)
  have er : dot_S10000x128_S128x128_S10000x128_1_0_0_1_n_n.rhsIdx i
      ((contrEquiv1 dot_S10000x128_S128x128_S10000x128_1_0_0_1_n_n 128 rfl rfl).symm k) = ridxB i k :=
    funext fun a => Fin.ext (by
      match a with
      | ⟨0, _⟩ => exact (rhsB_0 _ _).trans hk
      | ⟨1, _⟩ => exact rhsB_1 _ _)
  rw [el, er]

theorem lidxB_ix2 (p : Fin 10000) (q : Fin 128) (k : Fin 128) : lidxB (ix2 p q) k = ix2 p k :=
  funext fun a => match a with | ⟨0, _⟩ => rfl | ⟨1, _⟩ => rfl
theorem ridxB_ix2 (p : Fin 10000) (q : Fin 128) (k : Fin 128) : ridxB (ix2 p q) k = ix2 k q :=
  funext fun a => match a with | ⟨0, _⟩ => rfl | ⟨1, _⟩ => rfl

/-- The product at `(p, q)`: `Σₖ l[p, k] · r[k, q]`. -/
theorem mmB_ix2 (l : FVec Ideal S10000x128 .f32) (r : FVec Ideal S128x128 .f32) (p : Fin 10000) (q : Fin 128) :
    Host.dotGeneral dot_S10000x128_S128x128_S10000x128_1_0_0_1_n_n none l r (ix2 p q)
      = ∑ k : Fin 128, l (ix2 p k) * r (ix2 k q) := by
  rw [mmB_apply]
  exact Finset.sum_congr rfl fun k _ => by rw [lidxB_ix2, ridxB_ix2]

/-! ### Both -/

/-- Entry `(r, j)` of `(A · X) · Wᵀ` is the double sum: the transposed array at `(k, j)` is `W` at `(j, k)`. -/
theorem mm_apply (a : FVec Ideal S10000x10000 .f32) (x : FVec Ideal S10000x128 .f32) (w : FVec Ideal S128x128 .f32)
    (r : Fin 10000) (j : Fin 128) : Term.mm (F := Ideal) a x w (ix2 r j) = Cert.Spec.entry a x w r j := by
  unfold Term.mm Cert.Spec.entry
  rw [mmB_ix2]
  exact Finset.sum_congr rfl fun k _ => by rw [mmA_ix2, transpose_ix2_apply]

/-! ### One row of the product at a time -/

/-- The row sums, started from zero. -/
def rowsum (v : FVec Ideal S10000x128 .f32) : FVec Ideal S10000 .f32 :=
  Host.reduceAdd v (constant (F := Ideal) S_ .f32 0x00000000#32) Gen.reducesTo_S10000x128_S10000_d1 Gen.h_S_

/-- At row `p`: the initial zero plus the sum of the row's 128 entries. -/
theorem rowsum_apply (v : FVec Ideal S10000x128 .f32) (p : Fin 10000) :
    rowsum v (ix1 p) = Cert.Row.z + ∑ j : Fin 128, v (ix2 p j) := by
  unfold rowsum Cert.Row.z
  refine (Ideal.hostReduceAdd_single Gen.reducesTo_S10000x128_S10000_d1 (by decide) v _ (ix1 p)).trans ?_
  refine congrArg (_ + ·) (Finset.sum_congr rfl fun k _ => congrArg v (funext fun a => Fin.ext ?_))
  match a with
  | ⟨0, _⟩ => rfl
  | ⟨1, _⟩ => rfl

/-- The mean of row `r`, wherever it is read in the one-column array. -/
theorem mean_apply (o : FVec Ideal S10000x128 .f32) (r : Fin 10000) (u : Fin 1) :
    Term.mean (F := Ideal) o (ix2 r u) = Cert.Row.rmean (fun j => o (ix2 r j)) := by
  unfold Term.mean Cert.Row.rmean Cert.Row.c128
  show Ideal.div (broadcastInDim S10000x1 ![0] _ (rowsum o) (ix2 r u))
      (broadcastInDim S10000x1 ![] _ (constant (F := Ideal) S_ .f32 0x43000000#32) (ix2 r u)) = _
  rw [Cert.LibCols.broadcastInDim_a_a1_apply, Cert.LibCols.broadcastInDim_scalar_apply, rowsum_apply, constant_apply]

/-- The count: `128` less the integer zero read as a number. -/
theorem cnt_apply : Term.cnt (F := Ideal) ix0 = Cert.Row.rcnt := rfl

/-- The deviations from the row mean. -/
def dev (o : FVec Ideal S10000x128 .f32) : FVec Ideal S10000x128 .f32 :=
  subf o (broadcastInDim S10000x128 ![0, 1] Gen.bcast_S10000x1_S10000x128_0_1 (Term.mean (F := Ideal) o))

theorem dev_apply (o : FVec Ideal S10000x128 .f32) (r : Fin 10000) (j : Fin 128) :
    dev o (ix2 r j) = Cert.Row.rdev (fun j => o (ix2 r j)) j := by
  unfold dev Cert.Row.rdev
  rw [subf_apply, Cert.LibCols.broadcastInDim_a1_ab_apply, mean_apply]

/-- The variance of row `r`: the quotient is kept where the count is positive, else the fill. -/
theorem var_apply (o : FVec Ideal S10000x128 .f32) (r : Fin 10000) (u : Fin 1) :
    Term.var (F := Ideal) o (ix2 r u) = Cert.Row.rvar (fun j => o (ix2 r j)) := by
  unfold Term.var Cert.Row.rvar Cert.Row.fill
  show Scalar.select
      (broadcastInDim S10000x1 ![] _
        (cmpf .ogt (Term.cnt (F := Ideal)) (constant (F := Ideal) S_ .f32 0x00000000#32)) (ix2 r u))
      (Ideal.div (broadcastInDim S10000x1 ![0] _ (rowsum (mulf (dev o) (dev o))) (ix2 r u))
        (broadcastInDim S10000x1 ![] _ (Term.cnt (F := Ideal)) (ix2 r u)))
      (broadcastInDim S10000x1 ![] _ (id (constant (F := Ideal) S_ .f32 0x7FC00000#32)) (ix2 r u)) = _
  rw [Cert.LibCols.broadcastInDim_scalar_apply, Cert.LibCols.broadcastInDim_scalar_apply,
    Cert.LibCols.broadcastInDim_scalar_apply, Cert.LibCols.broadcastInDim_a_a1_apply, rowsum_apply, cmpf_apply, cnt_apply]
  simp only [mulf_apply, dev_apply]
  rfl

/-- The normalised entry `(r, q)`: the deviation over the root of the row's variance plus ε. -/
theorem normed_apply (o : FVec Ideal S10000x128 .f32) (r : Fin 10000) (q : Fin 128) :
    Term.normed (F := Ideal) o (ix2 r q) = Cert.Row.rnorm (fun j => o (ix2 r j)) q := by
  unfold Term.normed Cert.Row.rnorm Cert.Row.eps
  show Ideal.div (dev o (ix2 r q))
      (broadcastInDim S10000x128 ![0, 1] _
        (Host.sqrt (addf (Term.var (F := Ideal) o)
          (broadcastInDim S10000x1 ![] _ (constant (F := Ideal) S_ .f32 0x3727C5AC#32)))) (ix2 r q)) = _
  rw [dev_apply, Cert.LibCols.broadcastInDim_a1_ab_apply]
  show Ideal.div _ (Ideal.sqrt (Term.var (F := Ideal) o (ix2 r (0 : Fin 1))
      + broadcastInDim S10000x1 ![] _ (constant (F := Ideal) S_ .f32 0x3727C5AC#32) (ix2 r (0 : Fin 1)))) = _
  rw [var_apply, Cert.LibCols.broadcastInDim_scalar_apply, constant_apply]

/-- Everything after the two products, at `(r, q)`: the reference's row function of row `r`, at `q`. -/
theorem tail_apply (o : FVec Ideal S10000x128 .f32) (r : Fin 10000) (q : Fin 128) :
    Term.tail (F := Ideal) o (ix2 r q) = Cert.Row.rrow (fun j => o (ix2 r j)) q := by
  unfold Term.tail Cert.Row.rrow Cert.Row.z Cert.Row.slope
  rw [select_apply, cmpf_apply, mulf_apply, Cert.LibCols.broadcastInDim_scalar_apply,
    Cert.LibCols.broadcastInDim_scalar_apply, normed_apply]
  rfl

/-- The reference's result at `(r, q)`: its row function of row `r` of `(A · X) · Wᵀ`, at `q`. -/
theorem out_apply (a : FVec Ideal S10000x10000 .f32) (x : FVec Ideal S10000x128 .f32) (w : FVec Ideal S128x128 .f32)
    (r : Fin 10000) (q : Fin 128) :
    Term.out (F := Ideal) a x w (ix2 r q) = Cert.Row.rrow (fun j => Cert.Spec.entry a x w r j) q := by
  unfold Term.out
  rw [tail_apply]
  simp only [mm_apply]

end Cert.ReferenceIdeal.At

end
-- ==== Proof.Finite.lean ====
import proofs.«132448_g49108656063244_cont_8to1_c_419_2_alg».proof.Pre_finite_inputs
import proofs.«132448_g49108656063244_cont_8to1_c_419_2_alg».proof.Proof.Gen.Pre_finite_inputs
import Idealize.ShloMosaic.PureOps.Ideal
import Idealize.ShloMosaic.Lib.ReduceAll
import Idealize.ShloMosaic.Lib.ValueIdx
import Mathlib.Data.EReal.Basic

/-!
# Finite inputs are real

At the ideal instance a float is an extended real.  The precondition states, array by array, that
every entry `x` satisfies `|x| < +∞`, where `|x| = max x (-x)`; the three statements are joined by
`and`.  Both infinities have absolute value `⊤`, which is not below `⊤`, so an entry that passes
the test is the coercion of a real number.  This module reads that fact off the precondition.
-/

namespace Cert.Finite

open Idealize.ShloMosaic Cert.Pre_finite_inputs

/-- The scalar shape has exactly one index. -/
instance : Subsingleton S_.Idx := ⟨fun a b => funext fun d => d.elim0⟩

/-- The f32 pattern with all exponent bits set and a zero mantissa denotes `+∞`. -/
theorem ofBits_inf : Ideal.ofBits .f32 0x7F800000#32 = (⊤ : EReal) := by
  simp [Ideal.ofBits, Ideal.ieee]

/-- An extended real whose absolute value `max x (-x)` is strictly below `⊤` is a real:
    at `⊥` the maximum is `-⊥ = ⊤`, and at `⊤` it is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The comparison word `|x| < +∞` being 1 makes `x` a real. -/
theorem real_of_cmp (x : EReal)
    (h : Ideal.cmp .olt (max x (-x)) (Ideal.ofBits .f32 0x7F800000#32) = 1#1) :
    ∃ r : ℝ, x = (r : EReal) := by
  rw [ofBits_inf] at h
  apply real_of_abs_lt_top
  by_contra hn
  simp [Ideal.cmp, hn] at h

/-- `jnp.all(|v| < +∞)` over an array of any shape: if the reduction by `and` of the comparison
    words is 1 at the one index of the scalar result, every entry of `v` is a real, and `v` is the
    coercion of a real array. -/
theorem real_of_all {s : Shape} {axes : List (Fin s.rank)}
    (hb : S_.BroadcastsInDim s (![] : Fin 0 → Fin s.rank)) (hr : s.ReducesTo axes S_)
    (hu : 0 < S_.numel) (v : FVec Ideal s .f32)
    (h : Host.reduce IntOp.andi
          (cmpf .olt (Host.absf (F := Ideal) v)
            (broadcastInDim s ![] hb (constant (F := Ideal) S_ .f32 0x7F800000#32)))
          (constantI S_ 1 1#1) hr hu ValueIdx.ix0 = 1#1) :
    ∃ v' : s.Idx → ℝ, v = fun i => ((v' i : ℝ) : EReal) := by
  have hi : ∀ i, ∃ r : ℝ, v i = (r : EReal) := fun i =>
    real_of_cmp (v i) (Host.reduce_andi_all _ _ hr hu ValueIdx.ix0 h i)
  choose v' hv' using hi
  exact ⟨v', funext hv'⟩

/-- The precondition, at the ideal instance, makes each of the three arrays the coercion of a
    real array. -/
theorem real_of_pre (a : FVec Ideal S10000x10000 .f32) (x : FVec Ideal S10000x128 .f32)
    (w : FVec Ideal S128x128 .f32)
    (h : Cert.Pre_finite_inputs.fn (F := Ideal) a x w = fun _ => 1#1) :
    (∃ a' : S10000x10000.Idx → ℝ, a = fun i => ((a' i : ℝ) : EReal))
    ∧ (∃ x' : S10000x128.Idx → ℝ, x = fun i => ((x' i : ℝ) : EReal))
    ∧ (∃ w' : S128x128.Idx → ℝ, w = fun i => ((w' i : ℝ) : EReal)) := by
  have h0 := congrFun h ValueIdx.ix0
  dsimp only [Cert.Pre_finite_inputs.fn, andi] at h0
  obtain ⟨h12, h3⟩ := IntOp.andi_eq_one.1 h0
  obtain ⟨h1, h2⟩ := IntOp.andi_eq_one.1 h12
  exact ⟨real_of_all _ _ _ a h1, real_of_all _ _ _ x h2, real_of_all _ _ _ w h3⟩

/-- The same content entry by entry. -/
theorem real_of_pre_pointwise (a : FVec Ideal S10000x10000 .f32) (x : FVec Ideal S10000x128 .f32)
    (w : FVec Ideal S128x128 .f32)
    (h : Cert.Pre_finite_inputs.fn (F := Ideal) a x w = fun _ => 1#1) :
    (∀ i, ∃ r : ℝ, a i = (r : EReal)) ∧ (∀ i, ∃ r : ℝ, x i = (r : EReal))
    ∧ (∀ i, ∃ r : ℝ, w i = (r : EReal)) := by
  obtain ⟨⟨a', rfl⟩, ⟨x', rfl⟩, ⟨w', rfl⟩⟩ := real_of_pre a x w h
  exact ⟨fun i => ⟨a' i, rfl⟩, fun i => ⟨x' i, rfl⟩, fun i => ⟨w' i, rfl⟩⟩

end Cert.Finite
-- ==== Proof.lean ====
/-
  The certificate's five claims for the fused graph-convolution kernel
  `leaky_relu (layernorm ((A · X) · Wᵀ))` against its array-level reference.

  Frames. The kernel's two frames (as printed, and idealised) are the generated frame certificates. The
  reference has no kernel: its frame is its run (RefRun) with the result dropped.
  Preserves. The idealisation rewrote nothing, so there is nothing to state.
  Algebraic. The kernel's result array after the run is ONE function `G` of the three argument arrays
  (KerBlocks): at `(r, q)` the kernel's row function of row `r` of `(A · X) · Wᵀ`. The reference's result is
  its composed term (RefRun), which at `(r, q)` is the reference's row function of the same row (RefAt). The
  two row functions differ in how they normalise — `d · (σ² + ε)^(−1/2)` against `d / √(σ² + ε)` — and agree on a
  row of real numbers (RowLaw). The precondition makes every input entry a real (Finite), hence every entry of
  the product a real (Spec): the two results are equal, entry by entry.
-/
import proofs.«132448_g49108656063244_cont_8to1_c_419_2_alg».proof.Defs
import proofs.«132448_g49108656063244_cont_8to1_c_419_2_alg».proof.Proof.Gen.Kernel
import proofs.«132448_g49108656063244_cont_8to1_c_419_2_alg».proof.Proof.Gen.Kernel.Skeleton
import proofs.«132448_g49108656063244_cont_8to1_c_419_2_alg».proof.Proof.Gen.Kernel.Launch
import proofs.«132448_g49108656063244_cont_8to1_c_419_2_alg».proof.Proof.Gen.Kernel.Points
import proofs.«132448_g49108656063244_cont_8to1_c_419_2_alg».proof.Proof.Gen.Kernel.Frame
import proofs.«132448_g49108656063244_cont_8to1_c_419_2_alg».proof.Proof.Gen.KernelIdeal
import proofs.«132448_g49108656063244_cont_8to1_c_419_2_alg».proof.Proof.Gen.KernelIdeal.Skeleton
import proofs.«132448_g49108656063244_cont_8to1_c_419_2_alg».proof.Proof.Gen.KernelIdeal.Launch
import proofs.«132448_g49108656063244_cont_8to1_c_419_2_alg».proof.Proof.Gen.KernelIdeal.Points
import proofs.«132448_g49108656063244_cont_8to1_c_419_2_alg».proof.Proof.Gen.KernelIdeal.Frame
import proofs.«132448_g49108656063244_cont_8to1_c_419_2_alg».proof.Proof.Gen.ReferenceIdeal
import proofs.«132448_g49108656063244_cont_8to1_c_419_2_alg».proof.Proof.Gen.Pre_finite_inputs
import proofs.«132448_g49108656063244_cont_8to1_c_419_2_alg».proof.Proof.KerBlocks
import proofs.«132448_g49108656063244_cont_8to1_c_419_2_alg».proof.Proof.RefRun
import proofs.«132448_g49108656063244_cont_8to1_c_419_2_alg».proof.Proof.RefAt
import proofs.«132448_g49108656063244_cont_8to1_c_419_2_alg».proof.Proof.Finite
import proofs.«132448_g49108656063244_cont_8to1_c_419_2_alg».proof.Proof.RowLaw
import proofs.«132448_g49108656063244_cont_8to1_c_419_2_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

/-- On real inputs the reference's result term IS the kernel's result function: at `(r, q)` both are a row
    function of row `r` of `(A · X) · Wᵀ`, a row of reals, on which the two row functions agree. -/
theorem out_eq_G (a : FVec Ideal Cert.ReferenceIdeal.S10000x10000 .f32) (x : FVec Ideal Cert.ReferenceIdeal.S10000x128 .f32)
    (w : FVec Ideal Cert.ReferenceIdeal.S128x128 .f32)
    (ha : ∃ a' : Cert.ReferenceIdeal.S10000x10000.Idx → ℝ, a = fun i => ((a' i : ℝ) : EReal))
    (hx : ∃ x' : Cert.ReferenceIdeal.S10000x128.Idx → ℝ, x = fun i => ((x' i : ℝ) : EReal))
    (hw : ∃ w' : Cert.ReferenceIdeal.S128x128.Idx → ℝ, w = fun i => ((w' i : ℝ) : EReal)) :
    Cert.ReferenceIdeal.Term.out (F := Ideal) a x w = Cert.KernelIdeal.Blocks.G a x w := by
  obtain ⟨a', rfl⟩ := ha
  obtain ⟨x', rfl⟩ := hx
  obtain ⟨w', rfl⟩ := hw
  funext i
  obtain ⟨r, q, rfl⟩ : ∃ (r : Fin 10000) (q : Fin 128), i = ix2 r q := ⟨i 0, i 1, eq_ix2 i⟩
  rw [Cert.ReferenceIdeal.At.out_apply, Cert.KernelIdeal.Blocks.G_ix2]
  exact Cert.Row.rrow_eq_krow_of_real _ (fun j => ⟨_, Cert.Spec.entry_real a' x' w' r j⟩) q

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Blocks.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  obtain ⟨ha, hx, hw⟩ := Cert.Finite.real_of_pre _ _ _ (hpre c)
  exact out_eq_G _ _ _ ha hx hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
